-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8x4096x4096 : Shape := ⟨3, ![8, 4096, 4096]⟩
abbrev S4 : Shape := ⟨1, ![4]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4x2048x4096 .f32) (main_arg1 : FVec F S8x4096x4096 .f32) (main_arg2 : IVec S4 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  let main_c_2 : IVec S_ 32 := constantI S_ 32 0#32
  let main_v9 : IVec S4 32 := broadcastInDim S4 ![] bcast_S_S4 main_c_2
  let main_v10 : IVec S4 1 := cmpi .sge main_arg2 main_v9
  let main_c_3 : IVec S_ 1 := constantI S_ 1 1#1
  let main_v11 : IVec S_ 1 := (fun x v => Host.reduce IntOp.andi x v reducesTo_S4_S_d0 h_S_) main_v10 main_c_3
  let main_v12 : IVec S_ 1 := andi main_v8 main_v11
  main_v12
-- ==== Kernel.lean ====
abbrev S4x2048x4096 : Shape := ⟨3, ![4, 2048, 4096]⟩
abbrev S8x4096x4096 : Shape := ⟨3, ![8, 4096, 4096]⟩
abbrev S4 : Shape := ⟨1, ![4]⟩
abbrev S_ : Shape := ⟨0, ![]⟩
abbrev S4x1 : Shape := ⟨2, ![4, 1]⟩
abbrev S4x4096x4096 : Shape := ⟨3, ![4, 4096, 4096]⟩
abbrev S1x256x4096 : Shape := ⟨3, ![1, 256, 4096]⟩
abbrev S1x1024x4096 : Shape := ⟨3, ![1, 1024, 4096]⟩
abbrev S1x256x1024 : Shape := ⟨3, ![1, 256, 1024]⟩
abbrev S256x4096 : Shape := ⟨2, ![256, 4096]⟩
abbrev S1024x4096 : Shape := ⟨2, ![1024, 4096]⟩
abbrev S256x1024 : Shape := ⟨2, ![256, 1024]⟩

abbrev nBuf : Space → Nat
  | .hbm => 22
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S8x4096x4096, .f32⟩
  | .hbm, ⟨2, _⟩ => ⟨S4, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i1⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S4, .i32⟩
  | .hbm, ⟨18, _⟩ => ⟨S4x1, .i32⟩
  | .hbm, ⟨19, _⟩ => ⟨S4x4096x4096, .f32⟩
  | .hbm, ⟨20, _⟩ => ⟨S4x4096x4096, .bf16⟩
  | .hbm, ⟨21, _⟩ => ⟨S4x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x1024x4096, .bf16⟩
  | .local _ .vmem, ⟨3, _⟩ => ⟨S1x1024x4096, .bf16⟩
  | .local _ .vmem, ⟨4, _⟩ => ⟨S1x256x1024, .f32⟩
  | .local _ .vmem, ⟨5, _⟩ => ⟨S1x256x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_c_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  bcast_S_S4 : S_.BroadcastsInDim S4 (![] : Fin 0 → Fin S4.rank)
  bcast_S4_S4x1_0 : S4.BroadcastsInDim S4x1 (![0] : Fin 1 → Fin S4x1.rank)
  bitsLt_bf16_f32 : FTy.bits .bf16 < FTy.bits .f32
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  gather_S8x4096x4096_S4x1_S4x4096x4096_12_0_n_n_0_1_140964096_wf : GatherDims.WF S8x4096x4096 S4x1 S4x4096x4096 [1, 2] [0] [] [0] [] 1 ![1, 4096, 4096]
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x2048x4096.size a
  hwx0_0 : ∀ i : grid0.Coords, EltTy.bits .f32 = 32 ∨ (Rect.block (s := S4x2048x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S4x4096x4096.size a
  hwx0_1 : ∀ i : grid0.Coords, EltTy.bits .bf16 = 32 ∨ (Rect.block (s := S4x4096x4096) S1x1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S4x2048x4096.size a
  hwx0_2 : ∀ i : grid0.Coords, EltTy.bits .f32 = 32 ∨ (Rect.block (s := S4x2048x4096) S1x256x1024.size (cc0_transform_2 i) (hinb0_2 i)).WholeWords (EltTy.packing .f32)

variable [Facts₀]

def gather_S8x4096x4096_S4x1_S4x4096x4096_12_0_n_n_0_1_140964096 : GatherDims S8x4096x4096 S4x1 S4x4096x4096 where
  offsetDims := [1, 2]
  collapsedSliceDims := [0]
  operandBatchingDims := []
  startIndicesBatchingDims := []
  startIndexMap := [0]
  indexVectorDim := 1
  sliceSizes := ![1, 4096, 4096]
  wf := gather_S8x4096x4096_S4x1_S4x4096x4096_12_0_n_n_0_1_140964096_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S8x4096x4096 : Shape := ⟨3, ![8, 4096, 4096]⟩
abbrev S4 : Shape := ⟨1, ![4]⟩
abbrev S_ : Shape := ⟨0, ![]⟩
abbrev S4x1 : Shape := ⟨2, ![4, 1]⟩
abbrev S4x4096x4096 : Shape := ⟨3, ![4, 4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x4096x4096, .f32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i1⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4, .i32⟩
  | .hbm, ⟨10, _⟩ => ⟨S4x1, .i32⟩
  | .hbm, ⟨11, _⟩ => ⟨S4x4096x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  gather_S8x4096x4096_S4x1_S4x4096x4096_12_0_n_n_0_1_140964096_wf : GatherDims.WF S8x4096x4096 S4x1 S4x4096x4096 [1, 2] [0] [] [0] [] 1 ![1, 4096, 4096]
  dot_S4x2048x4096_S4x4096x4096_S4x2048x4096_2_2_1_1_0_0_wf : DotDims.WF S4x2048x4096 S4x4096x4096 S4x2048x4096 [2] [2] [1] [1] [0] [0]

variable [Facts₀]

def gather_S8x4096x4096_S4x1_S4x4096x4096_12_0_n_n_0_1_140964096 : GatherDims S8x4096x4096 S4x1 S4x4096x4096 where
  offsetDims := [1, 2]
  collapsedSliceDims := [0]
  operandBatchingDims := []
  startIndicesBatchingDims := []
  startIndexMap := [0]
  indexVectorDim := 1
  sliceSizes := ![1, 4096, 4096]
  wf := gather_S8x4096x4096_S4x1_S4x4096x4096_12_0_n_n_0_1_140964096_wf
def dot_S4x2048x4096_S4x4096x4096_S4x2048x4096_2_2_1_1_0_0 : DotDims S4x2048x4096 S4x4096x4096 S4x2048x4096 where
  lhsContracting := [2]
  rhsContracting := [2]
  lhsNonContracting := [1]
  rhsNonContracting := [1]
  lhsBatch := [0]
  rhsBatch := [0]
  wf := dot_S4x2048x4096_S4x4096x4096_S4x2048x4096_2_2_1_1_0_0_wf

class Facts : Prop extends Facts₀ where

variable [Facts]
-- ==== Proof.PreIds.lean ====
/-
  What the precondition says about the adapter numbers. The printed precondition is the conjunction of three `jnp.all`s:
  every activation finite, every table entry finite, and every adapter number `≥ 0` (signed). Only the third is
  used by the proof: the two programs turn a non-negative adapter number into the same row of the table, and the
  rest of the computation is one sum of products on both sides, which needs no finiteness.
-/
import proofs.«409185_j48954037240382_3_alg».proof.Pre_finite_inputs
import Idealize.ShloMosaic.Lib.ReduceAll
import Idealize.ShloMosaic.Lib.ValueIdx

noncomputable section

namespace Cert.Lora

open Idealize.ShloMosaic Idealize.ShloMosaic.ValueIdx Cert.Pre_finite_inputs

/-- The scalar shape has one index. -/
instance : Subsingleton (⟨0, ![]⟩ : Shape).Idx := ⟨fun _ _ => funext fun d => d.elim0⟩

/-- If the printed precondition is all ones, every adapter number is `≥ 0` in the signed order: the third conjunct is
    a reduction by `and` of the elementwise comparison against a broadcast zero. -/
theorem ids_nonneg_of_pre {F : FTy → Type} [FloatOps F] [Facts] (x : FVec F S4x2048x4096 .f32)
    (w : FVec F S8x4096x4096 .f32) (ids : IVec S4 32) (h : fn x w ids = fun _ => 1#1) (b : Fin 4) :
    IntOp.cmpi .sge (ids (ix1 b)) 0#32 = 1#1 := by
  have h0 := congrFun h ix0
  dsimp only [fn] at h0
  obtain ⟨-, h11⟩ := IntOp.andi_eq_one.1 h0
  exact Host.reduce_andi_all _ _ _ _ _ h11 (ix1 b)

end Cert.Lora

end
-- ==== Proof.LibGatherRows.lean ====
/-
  A row gather read at an index. jnp's `table[ids]` over a rank-3 table `[N, R, C]` at a vector of `n` row numbers
  lowers to a `stablehlo.gather` whose start indices are the `[n, 1]` column of row numbers: axis 0 of the table is
  collapsed and start-indexed, axes 1 and 2 are offset axes taken whole. Result element `(b, r, c)` is the table's
  element `(row, r, c)`, where `row` is the start index of position `b` read as a signed integer and clamped into
  `[0, N - 1]` (StableHLO clamps every start index so that the slice fits: a negative number reads row 0, one past
  the end reads the last row).
-/
import Idealize.ShloMosaic.Lib.ValueIdx

noncomputable section

namespace Idealize.ShloMosaic.GatherRows

open Idealize.ShloMosaic Idealize.ShloMosaic.ValueIdx

variable {α : Type}

/-- The dimension numbers of a whole-row gather from a table `[N, R, C]` at start indices `[n, 1]` into `[n, R, C]`;
    their conditions `wf` are decided on a program's literal shapes. -/
abbrev rowsDims (N n R C : Nat)
    (wf : GatherDims.WF ⟨3, ![N, R, C]⟩ ⟨2, ![n, 1]⟩ ⟨3, ![n, R, C]⟩ [1, 2] [0] [] [0] [] 1 ![1, R, C]) :
    GatherDims ⟨3, ![N, R, C]⟩ ⟨2, ![n, 1]⟩ ⟨3, ![n, R, C]⟩ where
  offsetDims := [1, 2]
  collapsedSliceDims := [0]
  operandBatchingDims := []
  startIndicesBatchingDims := []
  startIndexMap := [0]
  indexVectorDim := 1
  sliceSizes := ![1, R, C]
  wf := wf

/-- On the table's row axis the operand index is the clamped start index: no batching and no offset there. -/
theorem operandIdx_row {N n R C w : Nat}
    (wf : GatherDims.WF ⟨3, ![N, R, C]⟩ ⟨2, ![n, 1]⟩ ⟨3, ![n, R, C]⟩ [1, 2] [0] [] [0] [] 1 ![1, R, C])
    (idx : IVec ⟨2, ![n, 1]⟩ w) (b : Fin n) (r : Fin R) (c : Fin C) :
    ((rowsDims N n R C wf).operandIdx (ix3 b r c) idx (0 : Fin 3)).val
      = min (idx (ix2 b (0 : Fin 1))).toInt.toNat (N - 1) := by
  show (rowsDims N n R C wf).start (ix3 b r c) idx (0 : Fin 3) + (rowsDims N n R C wf).batchCoord (ix3 b r c) (0 : Fin 3)
    + (rowsDims N n R C wf).offCoord (ix3 b r c) (0 : Fin 3) = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 3) ∈ (rowsDims N n R C wf).startIndexMap from List.mem_singleton.mpr rfl)]
  have hsi : (rowsDims N n R C wf).siIdx (ix3 b r c) ⟨List.idxOf (0 : Fin 3) (rowsDims N n R C wf).startIndexMap,
      List.idxOf_lt_length_iff.2 (List.mem_singleton.mpr rfl)⟩ = ix2 b (0 : Fin 1) := by
    funext d; refine Fin.ext ?_
    match d with
    | ⟨0, _⟩ => rfl
    | ⟨1, _⟩ => rfl
  rw [hsi]
  rfl

/-- On the first offset axis the operand index is the result's own coordinate: the slice starts at 0 there. -/
theorem operandIdx_off1 {N n R C w : Nat}
    (wf : GatherDims.WF ⟨3, ![N, R, C]⟩ ⟨2, ![n, 1]⟩ ⟨3, ![n, R, C]⟩ [1, 2] [0] [] [0] [] 1 ![1, R, C])
    (idx : IVec ⟨2, ![n, 1]⟩ w) (b : Fin n) (r : Fin R) (c : Fin C) :
    ((rowsDims N n R C wf).operandIdx (ix3 b r c) idx (1 : Fin 3)).val = r.val := by
  show (rowsDims N n R C wf).start (ix3 b r c) idx (1 : Fin 3) + (rowsDims N n R C wf).batchCoord (ix3 b r c) (1 : Fin 3)
    + (rowsDims N n R C wf).offCoord (ix3 b r c) (1 : Fin 3) = _
  have hne : (1 : Fin 3) ∉ (rowsDims N n R C wf).startIndexMap :=
    fun h => absurd (List.mem_singleton.mp h) (by decide : (1 : Fin 3) ≠ 0)
  have hk : (1 : Fin 3) ∈ (rowsDims N n R C wf).sKept :=
    (GatherDims.mem_sKept _ _).mpr ⟨fun h => absurd (List.mem_singleton.mp h) (by decide : (1 : Fin 3) ≠ 0), List.not_mem_nil⟩
  rw [GatherDims.batchCoord_eq_zero _ _ _ List.not_mem_nil, Nat.add_zero]
  unfold GatherDims.start GatherDims.offCoord
  rw [dif_neg hne, dif_pos hk, Nat.zero_add]
  rfl

/-- On the second offset axis likewise. -/
theorem operandIdx_off2 {N n R C w : Nat}
    (wf : GatherDims.WF ⟨3, ![N, R, C]⟩ ⟨2, ![n, 1]⟩ ⟨3, ![n, R, C]⟩ [1, 2] [0] [] [0] [] 1 ![1, R, C])
    (idx : IVec ⟨2, ![n, 1]⟩ w) (b : Fin n) (r : Fin R) (c : Fin C) :
    ((rowsDims N n R C wf).operandIdx (ix3 b r c) idx (2 : Fin 3)).val = c.val := by
  show (rowsDims N n R C wf).start (ix3 b r c) idx (2 : Fin 3) + (rowsDims N n R C wf).batchCoord (ix3 b r c) (2 : Fin 3)
    + (rowsDims N n R C wf).offCoord (ix3 b r c) (2 : Fin 3) = _
  have hne : (2 : Fin 3) ∉ (rowsDims N n R C wf).startIndexMap :=
    fun h => absurd (List.mem_singleton.mp h) (by decide : (2 : Fin 3) ≠ 0)
  have hk : (2 : Fin 3) ∈ (rowsDims N n R C wf).sKept :=
    (GatherDims.mem_sKept _ _).mpr ⟨fun h => absurd (List.mem_singleton.mp h) (by decide : (2 : Fin 3) ≠ 0), List.not_mem_nil⟩
  rw [GatherDims.batchCoord_eq_zero _ _ _ List.not_mem_nil, Nat.add_zero]
  unfold GatherDims.start GatherDims.offCoord
  rw [dif_neg hne, dif_pos hk, Nat.zero_add]
  rfl

/-- THE ROW GATHER READ AT `(b, r, c)`: the table at row `idx[b, 0]`, read signed and clamped into `[0, N - 1]`, and at
    the same two trailing coordinates. -/
theorem gather_rows_apply {N n R C w : Nat} (hN : 0 < N)
    (wf : GatherDims.WF ⟨3, ![N, R, C]⟩ ⟨2, ![n, 1]⟩ ⟨3, ![n, R, C]⟩ [1, 2] [0] [] [0] [] 1 ![1, R, C])
    (x : (⟨3, ![N, R, C]⟩ : Shape).Idx → α) (idx : IVec ⟨2, ![n, 1]⟩ w) (b : Fin n) (r : Fin R) (c : Fin C) :
    Host.gather (rowsDims N n R C wf) x idx (ix3 b r c)
      = x (ix3 ⟨min (idx (ix2 b (0 : Fin 1))).toInt.toNat (N - 1), by omega⟩ r c) := by
  unfold Host.gather
  congr 1
  funext a
  refine Fin.ext ?_
  match a with
  | ⟨0, _⟩ => exact operandIdx_row wf idx b r c
  | ⟨1, _⟩ => exact operandIdx_off1 wf idx b r c
  | ⟨2, _⟩ => exact operandIdx_off2 wf idx b r c

end Idealize.ShloMosaic.GatherRows

end
-- ==== Proof.Spec.lean ====
/-
  The mathematics of the statement, with no program in sight.

  Inputs: activations `x : [4, 2048, 4096]`, a table of eight adapter matrices `w : [8, 4096, 4096]`, and one adapter
  number per batch element, `ids : [4]` (32-bit words read as signed integers). The result is, for batch element `b`,
  the product of `x[b]` with the transpose of the adapter matrix selected for `b`:
      out[b, s, o] = Σ_k x[b, s, k] · w[row b, o, k].
  The two programs differ only in how they turn the word `ids[b]` into the row they read:
    * the reference wraps a negative number Python-style (adds 8) and then reads the table at the wrapped number clamped
      into [0, 7] (the gather's own clamp);
    * the kernel first clips the number into [0, 7], then does the same wrap and clamped read (both now idle).
  For a number that is not negative the two rows are the same, `min ids[b] 7`: the wrap is idle on both sides, and the
  kernel's clip is the gather's clamp. (For a number in [-7, -1] they differ: the reference counts from the end of
  the table, the kernel reads row 0. That is why the statement assumes the adapter numbers non-negative.)
-/
import Idealize.ShloMosaic.Lib.ValueIdx
import Idealize.ShloMosaic.Lib.StableHlo.Predicate

noncomputable section

open scoped BigOperators

namespace Cert.Lora

open Idealize.ShloMosaic Idealize.ShloMosaic.ValueIdx

/-! ## From an adapter number to a row of the table -/

/-- The Python-style wrap of a row number of an 8-row table: a negative number counts from the end. -/
def wrapWord (a : BitVec 32) : BitVec 32 := Scalar.select (IntOp.cmpi .slt a 0#32) (IntOp.addi a 8#32) a

/-- The kernel's clip of an adapter number into [0, 7]: first `max 0`, then `min 7`, both signed. -/
def clipWord (a : BitVec 32) : BitVec 32 := IntOp.minsi 7#32 (IntOp.maxsi 0#32 a)

/-- The row of an 8-row table a start index reads: the word as a signed integer, clamped into [0, 7]. -/
def rowOf (a : BitVec 32) : Fin 8 := ⟨min a.toInt.toNat (8 - 1), by omega⟩

/-- The row the reference reads for the adapter number `a`. -/
def refRow (a : BitVec 32) : Fin 8 := rowOf (wrapWord a)

/-- The row the kernel reads for the adapter number `a`. -/
def kerRow (a : BitVec 32) : Fin 8 := rowOf (wrapWord (clipWord a))

/-- "`a ≥ 0`, signed" as the precondition prints it, is `0 ≤ a` as integers. -/
theorem nonneg_of_sge {a : BitVec 32} (h : IntOp.cmpi .sge a 0#32 = 1#1) : 0 ≤ a.toInt := by
  have h1 : (0#32).sle a = true := (StableHlo.Predicate.ofBool_eq_one_iff _).mp h
  have h2 : (0#32).toInt ≤ a.toInt := of_decide_eq_true h1
  rwa [BitVec.toInt_zero] at h2

/-- A non-negative number is not below zero in the signed order. -/
theorem slt_zero_of_nonneg {a : BitVec 32} (h : 0 ≤ a.toInt) : a.slt 0#32 = false := by
  unfold BitVec.slt
  exact decide_eq_false (by rw [BitVec.toInt_zero]; omega)

/-- The wrap leaves a non-negative number alone. -/
theorem wrapWord_of_nonneg {a : BitVec 32} (h : 0 ≤ a.toInt) : wrapWord a = a := by
  show Scalar.select (BitVec.ofBool (a.slt 0#32)) _ a = a
  rw [slt_zero_of_nonneg h]
  rfl

/-- The clip of a non-negative number is its minimum with 7. -/
theorem clipWord_toInt {a : BitVec 32} (h : 0 ≤ a.toInt) : (clipWord a).toInt = min a.toInt 7 := by
  have e7 : (7#32).toInt = 7 := by decide
  have hmax : IntOp.maxsi 0#32 a = a := by
    show (if a.slt 0#32 = true then 0#32 else a) = a
    rw [slt_zero_of_nonneg h]
    rfl
  unfold clipWord
  rw [hmax]
  unfold IntOp.minsi
  by_cases h7 : (7#32).slt a = true
  · rw [if_pos h7]
    have : (7#32).toInt < a.toInt := of_decide_eq_true h7
    omega
  · rw [if_neg h7]
    have : ¬ (7#32).toInt < a.toInt := fun hh => h7 (decide_eq_true hh)
    omega

/-- THE TWO ROWS AGREE on a non-negative adapter number: both are `min a 7`. -/
theorem kerRow_eq_refRow {a : BitVec 32} (h : IntOp.cmpi .sge a 0#32 = 1#1) : kerRow a = refRow a := by
  have h0 := nonneg_of_sge h
  have hc := clipWord_toInt h0
  unfold kerRow refRow
  rw [wrapWord_of_nonneg h0, wrapWord_of_nonneg (by rw [hc]; omega)]
  apply Fin.ext
  show min (clipWord a).toInt.toNat (8 - 1) = min a.toInt.toNat (8 - 1)
  rw [hc]
  omega

/-! ## The result as one function of the arguments -/

abbrev SX : Shape := ⟨3, ![4, 2048, 4096]⟩
abbrev SW : Shape := ⟨3, ![8, 4096, 4096]⟩
abbrev SG : Shape := ⟨3, ![4, 4096, 4096]⟩

/-- One entry of the product against matrices already selected, one per batch element:
    `Σ_k x[b, s, k] · g[b, o, k]` (the activations' row against the matrix's row: a product with the transpose). -/
def prodAt (x : SX.Idx → EReal) (g : SG.Idx → EReal) (b : Fin 4) (s : Fin 2048) (o : Fin 4096) : EReal :=
  ∑ k : Fin 4096, x (ix3 b s k) * g (ix3 b o k)

/-- The whole product against already selected matrices, index by index. -/
def prod (x : SX.Idx → EReal) (g : SG.Idx → EReal) : SX.Idx → EReal :=
  fun i => prodAt x g (i 0) (i 1) (i 2)

theorem prod_ix3 (x : SX.Idx → EReal) (g : SG.Idx → EReal) (b : Fin 4) (s : Fin 2048) (o : Fin 4096) :
    prod x g (ix3 b s o) = prodAt x g b s o := rfl

/-- The matrices selected out of the table: batch element `b` gets row `row b`. -/
def selected (w : SW.Idx → EReal) (row : Fin 4 → Fin 8) : SG.Idx → EReal :=
  fun j => w (ix3 (row (j 0)) (j 1 : Fin 4096) (j 2 : Fin 4096))

theorem selected_ix3 (w : SW.Idx → EReal) (row : Fin 4 → Fin 8) (b : Fin 4) (o k : Fin 4096) :
    selected w row (ix3 b o k) = w (ix3 (row b) o k) := rfl

/-- THE SPECIFICATION: `out[b, s, o] = Σ_k x[b, s, k] · w[row b, o, k]`, over the extended reals. -/
def lora (x : SX.Idx → EReal) (w : SW.Idx → EReal) (row : Fin 4 → Fin 8) : SX.Idx → EReal :=
  prod x (selected w row)

end Cert.Lora

end
-- ==== Proof.RefValue.lean ====
/-
  The reference's result as the specification's function. The reference wraps each adapter number Python-style,
  gathers the selected `[4096, 4096]` matrices out of the table (the gather clamps the row into [0, 7]), and
  contracts the last axis of the activations with the last axis of the gathered matrices, batch element by batch
  element: `out[b, s, o] = Σ_k x[b, s, k] · w[refRow ids[b], o, k]`.
-/
import proofs.«409185_j48954037240382_3_alg».proof.Proof.Gen.ReferenceIdeal.Read
import proofs.«409185_j48954037240382_3_alg».proof.Proof.LibGatherRows
import proofs.«409185_j48954037240382_3_alg».proof.Proof.Spec

noncomputable section

open scoped BigOperators

namespace Cert.Lora.Ref

open Cert.ReferenceIdeal Cert.ReferenceIdeal.Gen Cert.ReferenceIdeal.Read
open Idealize.ShloMosaic Idealize.ShloMosaic.ValueIdx Idealize.ShloMosaic.GatherRows Cert.Lora

/-- The column of start indices the reference hands its gather holds, at position `b`, the wrapped adapter number. -/
theorem start_apply (x2 : IVec S4 32) (b : Fin 4) :
    val_main_v5 (F := Ideal) x2 (ix2 b (0 : Fin 1)) = wrapWord (x2 (ix1 b)) := by
  rw [val_main_v5_apply]
  have e : idx_main_v5 (ix2 b (0 : Fin 1)) = ix1 b := funext fun a => Fin.ext (by match a with | ⟨0, _⟩ => rfl)
  rw [e, val_main_v4_apply, val_main_v1_apply, val_main_v3_apply, val_main_v0_apply, val_main_v2_apply]
  rfl

/-- The gathered matrices: batch element `b`'s is row `refRow ids[b]` of the table. -/
theorem gathered_eq (x1 : FVec Ideal S8x4096x4096 .f32) (x2 : IVec S4 32) :
    val_main_v6 (F := Ideal) x1 x2 = selected x1 (fun b => refRow (x2 (ix1 b))) := by
  funext j
  obtain ⟨b, o, k, rfl⟩ : ∃ (b : Fin 4) (o k : Fin 4096), j = ix3 b o k := ⟨j 0, j 1, j 2, eq_ix3 j⟩
  rw [selected_ix3]
  unfold val_main_v6
  show Host.gather (rowsDims 8 4 4096 4096 _) x1 (val_main_v5 (F := Ideal) x2) (ix3 b o k) = _
  rw [gather_rows_apply (by decide)]
  refine congrArg x1 (congrArg (fun r : Fin 8 => ix3 r o k) (Fin.ext ?_))
  show min (val_main_v5 (F := Ideal) x2 (ix2 b (0 : Fin 1))).toInt.toNat (8 - 1)
    = min (wrapWord (x2 (ix1 b))).toInt.toNat (8 - 1)
  rw [start_apply]

/-- THE REFERENCE IS THE SPECIFICATION at the rows `refRow ids[b]`: its `dot_general` contracts the last axes of the
    activations and of the gathered matrices, batch element by batch element. -/
theorem ref_eq (x0 : FVec Ideal S4x2048x4096 .f32) (x1 : FVec Ideal S8x4096x4096 .f32) (x2 : IVec S4 32) :
    val_main_v7 (F := Ideal) x0 x1 x2 = lora x0 x1 (fun b => refRow (x2 (ix1 b))) := by
  funext i
  obtain ⟨b, s, o, rfl⟩ : ∃ (b : Fin 4) (s : Fin 2048) (o : Fin 4096), i = ix3 b s o := ⟨i 0, i 1, i 2, eq_ix3 i⟩
  rw [val_main_v7_apply, gathered_eq]
  unfold lora
  rw [prod_ix3]
  unfold prodAt
  refine Finset.sum_congr rfl fun k _ => ?_
  have el : lidx_main_v7 (ix3 b s o) k = ix3 b s k :=
    funext fun a => Fin.ext (by match a with | ⟨0, _⟩ => rfl | ⟨1, _⟩ => rfl | ⟨2, _⟩ => rfl)
  have er : ridx_main_v7 (ix3 b s o) k = ix3 b o k :=
    funext fun a => Fin.ext (by match a with | ⟨0, _⟩ => rfl | ⟨1, _⟩ => rfl | ⟨2, _⟩ => rfl)
  rw [el, er]

end Cert.Lora.Ref

end
-- ==== Proof.KernelHost.lean ====
/-
  What the kernel's host operations hand the pallas_call as its second operand. Before the call the host clips the
  adapter numbers into [0, 7], wraps them Python-style (idle after the clip), gathers the selected matrices out of
  the table (the gather clamps the row into [0, 7]: idle too) and changes their format (the identity over the
  extended reals). So the array the weights' window stages holds, for batch element `b`, row `kerRow ids[b]` of the table.
-/
import proofs.«409185_j48954037240382_3_alg».proof.Proof.Gen.KernelIdeal.Frame
import proofs.«409185_j48954037240382_3_alg».proof.Proof.LibGatherRows
import proofs.«409185_j48954037240382_3_alg».proof.Proof.Spec
import Idealize.ShloMosaic.Lib.StableHlo.Run
import Idealize.ShloMosaic.Lib.Pipeline.Value

noncomputable section

namespace Cert.Lora.Ker

open Cert.KernelIdeal Cert.KernelIdeal.Gen
open Idealize.ShloMosaic Idealize.ShloMosaic.TcCoe Idealize.SL.Sem Idealize.ShloMosaic.StableHlo
open Idealize.ShloMosaic.ValueIdx Idealize.ShloMosaic.GatherRows Cert.Lora

variable (m : (ℓ : Loc nD τ sig) → Buf (Elt Ideal) ℓ)

/-- The adapter numbers after the host's clip: `min 7 (max 0 ids)`, elementwise and signed. -/
def clipped (ids : IVec S4 32) : IVec S4 32 :=
  minsi (broadcastInDim S4 ![] bcast_S_S4 (constantI S_ 32 7#32))
    (maxsi (broadcastInDim S4 ![] bcast_S_S4 (constantI S_ 32 0#32)) ids)

/-- The clipped numbers after the Python-style wrap. -/
def wrapped (ids : IVec S4 32) : IVec S4 32 :=
  select (cmpi .slt (clipped ids) (broadcastInDim S4 ![] bcast_S_S4 (constantI S_ 32 0#32)))
    (addi (clipped ids) (broadcastInDim S4 ![] bcast_S_S4 (constantI S_ 32 8#32))) (clipped ids)

/-- The column of start indices the host hands its gather. -/
def startCol (ids : IVec S4 32) : IVec S4x1 32 := broadcastInDim S4x1 ![0] bcast_S4_S4x1_0 (wrapped ids)

/-- The weights' window's array as the region finds it is the host operations' term of the launch memory: the table
    gathered at the start column, its format changed. -/
theorem V_main_v8 (c : Dev nD) :
    (V m c main_v8 : S4x4096x4096.Idx → EReal)
      = truncf (F := Ideal) .bf16 (Host.gather gather_S8x4096x4096_S4x1_S4x4096x4096_12_0_n_n_0_1_140964096
          (m ((c : Thread nD τ).loc main_arg1) : FVec Ideal S8x4096x4096 .f32)
          (startCol (m ((c : Thread nD τ).loc main_arg2)))) bitsLt_bf16_f32 := by
  dsimp only [V]
  simp only [hostOps0, hostOps0_1, hostOps0_2, List.flatten_cons, List.flatten_nil, List.append_nil, List.cons_append,
    List.nil_append]
  after_results
  rfl

/-- The start column at position `b` is the clipped and wrapped adapter number. -/
theorem startCol_apply (ids : IVec S4 32) (b : Fin 4) :
    startCol ids (ix2 b (0 : Fin 1)) = wrapWord (clipWord (ids (ix1 b))) := by
  unfold startCol
  refine (broadcastInDim_apply _ bcast_S4_S4x1_0 (wrapped ids) (ix2 b (0 : Fin 1)) (ix1 b) (fun a => ?_)).trans ?_
  · match a with
    | ⟨0, _⟩ => show b.val = if (4 : Nat) = 1 then 0 else b.val; rw [if_neg (by decide)]
  · rfl

/-- THE SELECTED MATRICES: the array the weights' window stages is the table's rows `kerRow ids[b]`. -/
theorem V_main_v8_eq (c : Dev nD) :
    (V m c main_v8 : S4x4096x4096.Idx → EReal)
      = selected (m ((c : Thread nD τ).loc main_arg1)) (fun b => kerRow (m ((c : Thread nD τ).loc main_arg2) (ix1 b))) := by
  rw [V_main_v8]
  funext j
  obtain ⟨b, o, k, rfl⟩ : ∃ (b : Fin 4) (o k : Fin 4096), j = ix3 b o k := ⟨j 0, j 1, j 2, eq_ix3 j⟩
  rw [selected_ix3]
  show Host.gather (rowsDims 8 4 4096 4096 _) (m ((c : Thread nD τ).loc main_arg1) : FVec Ideal S8x4096x4096 .f32)
    (startCol (m ((c : Thread nD τ).loc main_arg2))) (ix3 b o k) = _
  rw [gather_rows_apply (by decide)]
  refine congrArg (m ((c : Thread nD τ).loc main_arg1) : FVec Ideal S8x4096x4096 .f32)
    (congrArg (fun r : Fin 8 => ix3 r o k) (Fin.ext ?_))
  show min (startCol (m ((c : Thread nD τ).loc main_arg2)) (ix2 b (0 : Fin 1))).toInt.toNat (8 - 1)
    = min (wrapWord (clipWord (m ((c : Thread nD τ).loc main_arg2) (ix1 b)))).toInt.toNat (8 - 1)
  rw [startCol_apply]

end Cert.Lora.Ker

end
-- ==== Proof.KernelValue.lean ====
/-
  The kernel's result as the specification's function. The pallas_call walks a grid of (batch element `b`, column
  block `j`, row block `i`); at a point it stages rows `256 i … 256 i + 255` of `x[b]` (all 4096 columns) and rows
  `1024 j … 1024 j + 1023` of the matrix selected for `b`, multiplies the first block with the transpose of the
  second into a zero accumulator, and writes the `256 × 1024` product back as block `(b, i, j)` of the result. Over
  the extended reals the zero accumulator adds nothing and the format changes are the identity, so entry `(p, q)` of
  the point's product is `Σ_k x[b, 256 i + p, k] · g[b, 1024 j + q, k]`: the block of the whole product
  `out[b, s, o] = Σ_k x[b, s, k] · g[b, o, k]` the point's output rectangle names. The 128 blocks tile the result.
-/
import proofs.«409185_j48954037240382_3_alg».proof.Proof.Gen.KernelIdeal.Value
import proofs.«409185_j48954037240382_3_alg».proof.Proof.KernelHost
import Idealize.ShloMosaic.Lib.Pipeline.Value
import Idealize.ShloMosaic.Lib.ValueIdx
import Idealize.ShloMosaic.PureOps.Ideal.Laws

noncomputable section

open scoped BigOperators

namespace Cert.Lora.Ker

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx Cert.Lora

variable (m : (ℓ : Loc nD τ sig) → Buf (Elt Ideal) ℓ) (ρ : Dev nD → PrngReg)

theorem hz3 : (![0, 0, 0] : Fin 3 → Nat) = fun _ => 0 := funext fun a => by fin_cases a <;> rfl

/-! ## The body's product at an entry -/

/-- The left operand's index at output entry `i` and contraction position `q`: row `i 0` … -/
theorem lhs_0 (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
/-- … and column `q`. -/
theorem lhs_1 (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
/-- The right operand's index: row `i 1` (the product is with the transpose) … -/
theorem rhs_0 (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
/-- … and column `q`. -/
theorem rhs_1 (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- ENTRY `(p, q)` OF THE BODY'S PRODUCT: row `p` of the activations' block against row `q` of the matrix's block. -/
theorem pay_apply (x0 : Vec Ideal S1x256x4096 .f32) (x1 : Vec Ideal S1x1024x4096 .bf16) (p : Fin 256) (q : Fin 1024) :
    (k0_pay1 (F := Ideal) x0 x1 (ix3 (0 : Fin 1) p q) : EReal)
      = ∑ k : Fin 4096, (x0 (ix3 (0 : Fin 1) p k) : EReal) * (x1 (ix3 (0 : Fin 1) q k) : EReal) := by
  unfold k0_pay1
  refine (shapeCast_addUnit_apply ![256, 1024] _ shapeCasts_S256x1024_S1x256x1024 (ix3 (0 : Fin 1) p q)).trans ?_
  have e1 : (fun a : Fin 2 => (ix3 (0 : Fin 1) p q) a.succ) = ix2 p q :=
    funext fun a => by match a with | ⟨0, _⟩ => rfl | ⟨1, _⟩ => rfl
  rw [e1]
  refine (Ideal.matmul_constant_zero_apply dot_S256x4096_S1024x4096_S256x1024_1_1_0_0_n_n none _ _ (ix2 p q)).trans ?_
  rw [← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q) ((contrEquiv1 dot_S256x4096_S1024x4096_S256x1024_1_1_0_0_n_n 4096 rfl rfl).symm k) = ix2 p k :=
    funext fun a => Fin.ext (by
      match a with
      | ⟨0, _⟩ => exact lhs_0 _ _
      | ⟨1, _⟩ => exact (lhs_1 _ _).trans hk)
  have er : dot_S256x4096_S1024x4096_S256x1024_1_1_0_0_n_n.rhsIdx (ix2 p q) ((contrEquiv1 dot_S256x4096_S1024x4096_S256x1024_1_1_0_0_n_n 4096 rfl rfl).symm k) = ix2 q k :=
    funext fun a => Fin.ext (by
      match a with
      | ⟨0, _⟩ => exact rhs_0 _ _
      | ⟨1, _⟩ => exact (rhs_1 _ _).trans hk)
  rw [el, er]
  congr 1
  · refine (shapeCast_dropUnit_apply ![256, 4096] x0 shapeCasts_S1x256x4096_S256x4096 (ix2 p k)).trans (congrArg x0 ?_)
    funext a; match a with | ⟨0, _⟩ => rfl | ⟨1, _⟩ => rfl | ⟨2, _⟩ => rfl
  · refine (shapeCast_dropUnit_apply ![1024, 4096] x1 shapeCasts_S1x1024x4096_S1024x4096 (ix2 q k)).trans (congrArg x1 ?_)
    funext a; match a with | ⟨0, _⟩ => rfl | ⟨1, _⟩ => rfl | ⟨2, _⟩ => rfl

/-! ## From blocks to the array -/

/-- The printed index maps, decided over the 128 grid points: the activations' window moves with the output's first
    two block coordinates, the matrices' window with its first and third, and both take all 4096 columns; the
    output's block coordinates stay in their ranges. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (2 : Fin 3)
    ∧ win0_1.index t (2 : Fin 3) = 0
    ∧ win0_2.index t (0 : Fin 3) ≤ 3 ∧ win0_2.index t (1 : Fin 3) ≤ 7 ∧ win0_2.index t (2 : Fin 3) ≤ 3 :=
  (by decide +kernel : ∀ t : Fin grid0.N, _)

/-- Every block of the result is some point's. -/
theorem idx_onto : ∀ (q0 : Fin 4) (q1 : Fin 8) (q2 : Fin 4), ∃ t : Fin cfg0.N, win0_2.index t = ![q0.val, q1.val, q2.val] :=
  (by decide +kernel : ∀ (q0 : Fin 4) (q1 : Fin 8) (q2 : Fin 4), ∃ t : Fin grid0.N, win0_2.index t = ![q0.val, q1.val, q2.val])

/-- WHAT POINT `t` WRITES BACK is block `t` of the whole product of the arrays as the region finds them. -/
theorem flushed_eq (c : Dev nD) (t : Fin cfg0.N) :
    (dats m 0 c).flushed 2 t = ((cfg0.win 2).blk t).view.read (Elt Ideal)
      (prod (V m c main_arg0 : S4x2048x4096.Idx → EReal) (V m c main_v8 : S4x4096x4096.Idx → EReal)) := by
  show (cfg0.win 2).cut (grid0.coords t) ((dats m 0 c).after 2 t) = _
  rw [after0_2]
  unfold out0_2
  rw [View.canon_unit_zero hz3]
  simp only [View.ld_unit_zero (S := S1x256x4096) hz3, View.ld_unit_zero (S := S1x1024x4096) hz3]
  obtain ⟨e0, e1, e2, e3, e4, e5, e6, e7, e8⟩ := idx_facts t
  funext j
  obtain ⟨z, p, q, rfl⟩ : ∃ (z : Fin 1) (p : Fin 256) (q : Fin 1024), j = ix3 z p q := ⟨j 0, j 1, j 2, eq_ix3 j⟩
  obtain rfl : z = 0 := Subsingleton.elim _ _
  show (k0_pay1 (F := Ideal) (iblk m c 0 t) (iblk m c 1 t) (ix3 (0 : Fin 1) p q) : EReal)
    = prod (V m c main_arg0 : S4x2048x4096.Idx → EReal) (V m c main_v8 : S4x4096x4096.Idx → EReal)
        (((cfg0.win 2).blk t).view.emb (ix3 (0 : Fin 1) p q))
  refine (pay_apply (iblk m c 0 t) (iblk m c 1 t) p q).trans ?_
  -- the array index the output's rectangle gives entry (p, q) of the block
  obtain ⟨B, S, O, hi, hB, hS, hO⟩ : ∃ (B : Fin 4) (S : Fin 2048) (O : Fin 4096),
      ((cfg0.win 2).blk t).view.emb (ix3 (0 : Fin 1) p q) = ix3 B S O
      ∧ B.val = win0_2.index t (0 : Fin 3) ∧ S.val = win0_2.index t (1 : Fin 3) * 256 + p.val
      ∧ O.val = win0_2.index t (2 : Fin 3) * 1024 + q.val :=
    ⟨_, _, _, eq_ix3 _,
      (by show win0_2.index t (0 : Fin 3) * 1 + 1 * 0 = _; omega),
      (by show win0_2.index t (1 : Fin 3) * 256 + 1 * p.val = _; omega),
      (by show win0_2.index t (2 : Fin 3) * 1024 + 1 * q.val = _; omega)⟩
  rw [hi, prod_ix3]
  unfold prodAt
  refine Finset.sum_congr rfl fun k _ => ?_
  have hx : (iblk m c 0 t (ix3 (0 : Fin 1) p k) : EReal) = (V m c main_arg0 : S4x2048x4096.Idx → EReal) (ix3 B S k) := by
    show (V m c main_arg0 : S4x2048x4096.Idx → EReal) (((cfg0.win 0).blk t).view.emb (ix3 (0 : Fin 1) p k))
      = (V m c main_arg0 : S4x2048x4096.Idx → EReal) (ix3 B S k)
    refine congrArg (V m c main_arg0 : S4x2048x4096.Idx → EReal) (funext fun a => Fin.ext ?_)
    match a with
    | ⟨0, _⟩ => show win0_0.index t (0 : Fin 3) * 1 + 1 * 0 = B.val; omega
    | ⟨1, _⟩ => show win0_0.index t (1 : Fin 3) * 256 + 1 * p.val = S.val; omega
    | ⟨2, _⟩ => show win0_0.index t (2 : Fin 3) * 4096 + 1 * k.val = k.val; omega
  have hg : (iblk m c 1 t (ix3 (0 : Fin 1) q k) : EReal) = (V m c main_v8 : S4x4096x4096.Idx → EReal) (ix3 B O k) := by
    show (V m c main_v8 : S4x4096x4096.Idx → EReal) (((cfg0.win 1).blk t).view.emb (ix3 (0 : Fin 1) q k))
      = (V m c main_v8 : S4x4096x4096.Idx → EReal) (ix3 B O k)
    refine congrArg (V m c main_v8 : S4x4096x4096.Idx → EReal) (funext fun a => Fin.ext ?_)
    match a with
    | ⟨0, _⟩ => show win0_1.index t (0 : Fin 3) * 1 + 1 * 0 = B.val; omega
    | ⟨1, _⟩ => show win0_1.index t (1 : Fin 3) * 1024 + 1 * q.val = O.val; omega
    | ⟨2, _⟩ => show win0_1.index t (2 : Fin 3) * 4096 + 1 * k.val = k.val; omega
  exact congrArg₂ (fun a b : EReal => a * b) hx hg

/-- An index of the result is in point `t`'s block iff each coordinate is in the block's range on its axis. -/
theorem mem_blk (t : Fin cfg0.N) (i : S4x2048x4096.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v9).slice (win0_2.rect t)).set ↔ _
  rw [View.set_slice_whole, Rect.mem_set_unit]
  exact Iff.rfl

/-- THE BLOCKS TILE THE RESULT: entry `(b, s, o)` is in the block of the point with block coordinates
    `(b, s / 256, o / 1024)`. -/
theorem cover (i : S4x2048x4096.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 4096 := (i 2).isLt
  obtain ⟨t, ht⟩ := idx_onto ⟨(i 0).val, by omega⟩ ⟨(i 1).val / 256, by omega⟩ ⟨(i 2).val / 1024, by omega⟩
  have q0 : win0_2.index t (0 : Fin 3) = (i 0).val := congrFun ht 0
  have q1 : win0_2.index t (1 : Fin 3) = (i 1).val / 256 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- THE RESULT ARRAY after the run: the specification's function of the arguments at the rows `kerRow ids[b]`. -/
theorem final (c : Dev nD) :
    (dats m 0 c).arrAt 2 cfg0.N
      = lora (m ((c : Thread nD τ).loc main_arg0)) (m ((c : Thread nD τ).loc main_arg1))
          (fun b => kerRow (m ((c : Thread nD τ).loc main_arg2) (ix1 b))) := by
  rw [(dats m 0 c).arrAt_eq_of_cover 2
    (prod (V m c main_arg0 : S4x2048x4096.Idx → EReal) (V m c main_v8 : S4x4096x4096.Idx → EReal))
    (fun t _ => flushed_eq m c t) cover]
  unfold lora
  rw [V_main_v8_eq m c]
  exact congrArg (fun X : S4x2048x4096.Idx → EReal => prod X _) (V_main_arg0 m c)

/-! ## The run, read -/

/-- The kernel's run: the result array ends at the specification's function of the arguments, which end unchanged. -/
theorem run : θ_run defs (onTc (τ := τ) (main (F := Ideal))) ⟨m, fun _ => 0, ρ⟩ fun r => ∀ c : Dev nD,
      r.2.mem ((c : Thread nD τ).loc main_v9)
        = lora (m ((c : Thread nD τ).loc main_arg0)) (m ((c : Thread nD τ).loc main_arg1))
            (fun b => kerRow (m ((c : Thread nD τ).loc main_arg2) (ix1 b)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Lora.Ker

end
-- ==== Proof.lean ====
/-
  Batched adapter matmul: for each of 4 batch elements, the activations `x[b] : [2048, 4096]` times the transpose of
  the adapter matrix `weight[row b] : [4096, 4096]` chosen by the adapter number `adapter_ids[b]`,
      out[b, s, o] = Σ_k x[b, s, k] · weight[row b, o, k].

  The kernel clips the adapter numbers into [0, 7], gathers the chosen matrices on the host and multiplies block by
  block (256 rows of `x[b]` against 1024 rows of the chosen matrix, all 4096 columns at once, into a zero
  accumulator); the reference wraps a negative adapter number Python-style, gathers (the gather clamps the row into
  [0, 7]) and contracts with one `dot_general`. Over the extended reals both products are the same sum of 4096
  products — no rearrangement, so no finiteness is needed — and the two programs can only differ in the row they
  read. For an adapter number that is not negative both read row `min id 7`; for one in [-7, -1] the reference reads
  row `id + 8` and the kernel row 0. The statement therefore assumes the adapter numbers non-negative, and that
  is the only part of the precondition the proof uses.

  The three frames are the generated ones (the reference's is its generated run with the result dropped); the
  idealization ledger is empty.
-/
import proofs.«409185_j48954037240382_3_alg».proof.Defs
import proofs.«409185_j48954037240382_3_alg».proof.Proof.Gen.Kernel
import proofs.«409185_j48954037240382_3_alg».proof.Proof.Gen.Kernel.Skeleton
import proofs.«409185_j48954037240382_3_alg».proof.Proof.Gen.Kernel.Launch
import proofs.«409185_j48954037240382_3_alg».proof.Proof.Gen.Kernel.Points
import proofs.«409185_j48954037240382_3_alg».proof.Proof.Gen.Kernel.Frame
import proofs.«409185_j48954037240382_3_alg».proof.Proof.Gen.KernelIdeal
import proofs.«409185_j48954037240382_3_alg».proof.Proof.Gen.KernelIdeal.Skeleton
import proofs.«409185_j48954037240382_3_alg».proof.Proof.Gen.KernelIdeal.Launch
import proofs.«409185_j48954037240382_3_alg».proof.Proof.Gen.KernelIdeal.Points
import proofs.«409185_j48954037240382_3_alg».proof.Proof.Gen.KernelIdeal.Frame
import proofs.«409185_j48954037240382_3_alg».proof.Proof.Gen.ReferenceIdeal
import proofs.«409185_j48954037240382_3_alg».proof.Proof.Gen.KernelIdeal.Value
import proofs.«409185_j48954037240382_3_alg».proof.Proof.Gen.ReferenceIdeal.Run
import proofs.«409185_j48954037240382_3_alg».proof.Proof.Gen.ReferenceIdeal.Read
import proofs.«409185_j48954037240382_3_alg».proof.Proof.Gen.Pre_finite_inputs
import proofs.«409185_j48954037240382_3_alg».proof.Proof.PreIds
import proofs.«409185_j48954037240382_3_alg».proof.Proof.RefValue
import proofs.«409185_j48954037240382_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.Lora

/-- The kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at `out[b, s, o] = Σ_k x[b, s, k] · weight[row b, o, k]`; the kernel's row is `kerRow ids[b]`, the
    reference's `refRow ids[b]`, and the two agree because the precondition makes every adapter number non-negative. -/
theorem algebraic : Cert.algebraic_KernelIdeal_ReferenceIdeal := by
  intro m ρ m' ρ' hpre hagree
  refine ⟨fun c => lora (m ((c : Thread Cert.KernelIdeal.nD Cert.KernelIdeal.τ).loc Cert.KernelIdeal.main_arg0))
      (m ((c : Thread Cert.KernelIdeal.nD Cert.KernelIdeal.τ).loc Cert.KernelIdeal.main_arg1))
      (fun b => kerRow (m ((c : Thread Cert.KernelIdeal.nD Cert.KernelIdeal.τ).loc Cert.KernelIdeal.main_arg2) (ix1 b))),
    Cert.Lora.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Lora.Ref.ref_eq, (hagree c).1, (hagree c).2.1, (hagree c).2.2]
  refine congrArg (lora _ _) (funext fun b => ?_)
  exact (kerRow_eq_refRow (ids_nonneg_of_pre _ _ _ (hpre c) b)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
